-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S64x32x2048 : Shape := ⟨3, ![64, 32, 2048]⟩
abbrev S64x2048x32 : Shape := ⟨3, ![64, 2048, 32]⟩
abbrev S64x2048 : Shape := ⟨2, ![64, 2048]⟩
abbrev S64 : Shape := ⟨1, ![64]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S64x32x2048 : S_.BroadcastsInDim S64x32x2048 (![] : Fin 0 → Fin S64x32x2048.rank)
  reducesTo_S64x32x2048_S_d0_1_2 : S64x32x2048.ReducesTo [0, 1, 2] S_
  bcast_S_S64x2048x32 : S_.BroadcastsInDim S64x2048x32 (![] : Fin 0 → Fin S64x2048x32.rank)
  reducesTo_S64x2048x32_S_d0_1_2 : S64x2048x32.ReducesTo [0, 1, 2] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2048x2048 .f32) (main_arg1 : FVec F S64x32x2048 .f32) (main_arg2 : FVec F S64x2048x32 .f32) (main_arg3 : FVec F S64x2048 .f32) (main_arg4 : FVec F S64 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S64x32x2048 .f32 := Host.absf main_arg1
  let main_cst_0 : FVec F S_ .f32 := constant S_ .f32 0x7F800000#32
  let main_v5 : FVec F S64x32x2048 .f32 := broadcastInDim S64x32x2048 ![] bcast_S_S64x32x2048 main_cst_0
  let main_v6 : IVec S64x32x2048 1 := cmpf .olt main_v4 main_v5
  let main_c_1 : IVec S_ 1 := constantI S_ 1 1#1
  let main_v7 : IVec S_ 1 := (fun x v => Host.reduce IntOp.andi x v reducesTo_S64x32x2048_S_d0_1_2 h_S_) main_v6 main_c_1
  let main_v8 : IVec S_ 1 := andi main_v3 main_v7
  let main_v9 : FVec F S64x2048x32 .f32 := Host.absf main_arg2
  let main_cst_2 : FVec F S_ .f32 := constant S_ .f32 0x7F800000#32
  let main_v10 : FVec F S64x2048x32 .f32 := broadcastInDim S64x2048x32 ![] bcast_S_S64x2048x32 main_cst_2
  let main_v11 : IVec S64x2048x32 1 := cmpf .olt main_v9 main_v10
  let main_c_3 : IVec S_ 1 := constantI S_ 1 1#1
  let main_v12 : IVec S_ 1 := (fun x v => Host.reduce IntOp.andi x v reducesTo_S64x2048x32_S_d0_1_2 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_v13 main_v16
-- ==== Kernel.lean ====
abbrev S2048x2048 : Shape := ⟨2, ![2048, 2048]⟩
abbrev S64x32x2048 : Shape := ⟨3, ![64, 32, 2048]⟩
abbrev S64x2048x32 : Shape := ⟨3, ![64, 2048, 32]⟩
abbrev S64x2048 : Shape := ⟨2, ![64, 2048]⟩
abbrev S64 : Shape := ⟨1, ![64]⟩
abbrev S2048x64 : Shape := ⟨2, ![2048, 64]⟩
abbrev S1x64 : Shape := ⟨2, ![1, 64]⟩
abbrev S64x64 : Shape := ⟨2, ![64, 64]⟩
abbrev S_ : Shape := ⟨0, ![]⟩
abbrev S1x32 : Shape := ⟨2, ![1, 32]⟩
abbrev S64x1x64x1 : Shape := ⟨4, ![64, 1, 64, 1]⟩
abbrev S1x1x1x32 : Shape := ⟨4, ![1, 1, 1, 32]⟩
abbrev S64x1x64x32 : Shape := ⟨4, ![64, 1, 64, 32]⟩
abbrev S256x2048 : Shape := ⟨2, ![256, 2048]⟩
abbrev S256x64 : Shape := ⟨2, ![256, 64]⟩
abbrev S64x65536 : Shape := ⟨2, ![64, 65536]⟩

abbrev nBuf : Space → Nat
  | .hbm => 44
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S64x32x2048, .f32⟩
  | .hbm, ⟨2, _⟩ => ⟨S64x2048x32, .f32⟩
  | .hbm, ⟨3, _⟩ => ⟨S64x2048, .f32⟩
  | .hbm, ⟨4, _⟩ => ⟨S64, .f32⟩
  | .hbm, ⟨5, _⟩ => ⟨S2048x2048, .f32⟩
  | .hbm, ⟨6, _⟩ => ⟨S64x32x2048, .f32⟩
  | .hbm, ⟨7, _⟩ => ⟨S2048x2048, .f32⟩
  | .hbm, ⟨8, _⟩ => ⟨S2048x64, .f32⟩
  | .hbm, ⟨9, _⟩ => ⟨S1x64, .f32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S64x64, .f32⟩
  | .hbm, ⟨17, _⟩ => ⟨S_, .f32⟩
  | .hbm, ⟨18, _⟩ => ⟨S1x32, .f32⟩
  | .hbm, ⟨19, _⟩ => ⟨S64x1x64x1, .f32⟩
  | .hbm, ⟨20, _⟩ => ⟨S1x1x1x32, .f32⟩
  | .hbm, ⟨21, _⟩ => ⟨S64x1x64x32, .f32⟩
  | .hbm, ⟨22, _⟩ => ⟨S64x1x64x32, .f32⟩
  | .hbm, ⟨23, _⟩ => ⟨S64x1x64x32, .f32⟩
  | .hbm, ⟨24, _⟩ => ⟨S64x2048, .f32⟩
  | .hbm, ⟨25, _⟩ => ⟨S2048x2048, .bf16⟩
  | .hbm, ⟨26, _⟩ => ⟨S2048x2048, .bf16⟩
  | .hbm, ⟨27, _⟩ => ⟨S64x2048, .bf16⟩
  | .hbm, ⟨28, _⟩ => ⟨S2048x2048, .f32⟩
  | .hbm, ⟨29, _⟩ => ⟨S2048x64, .f32⟩
  | .hbm, ⟨30, _⟩ => ⟨S64x65536, .f32⟩
  | .hbm, ⟨31, _⟩ => ⟨S64x65536, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x65536, .f32⟩
  | .hbm, ⟨36, _⟩ => ⟨S64x65536, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x64, .f32⟩
  | .local _ .vmem, ⟨5, _⟩ => ⟨S1x64, .f32⟩
  | .local _ .vmem, ⟨6, _⟩ => ⟨S64x2048, .bf16⟩
  | .local _ .vmem, ⟨7, _⟩ => ⟨S256x2048, .f32⟩
  | .local _ .vmem, ⟨8, _⟩ => ⟨S256x2048, .f32⟩
  | .local _ .vmem, ⟨9, _⟩ => ⟨S256x64, .f32⟩
  | .local _ .vmem, ⟨10, _⟩ => ⟨S256x64, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_cst : Ref sig .tc := ⟨.hbm, 37, rfl⟩
abbrev main_call2_v1 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x32x2048_S2048x2048 : S64x32x2048.ShapeCasts S2048x2048
  transposes_S64x2048x32_S64x32x2048_0_2_1 : S64x2048x32.Transposes [0, 2, 1] S64x32x2048
  transposes_S64x2048_S2048x64_1_0 : S64x2048.Transposes [1, 0] S2048x64
  shapeCasts_S64_S1x64 : S64.ShapeCasts S1x64
  bcast_S_S64x64 : S_.BroadcastsInDim S64x64 (![] : Fin 0 → Fin S64x64.rank)
  bcast_S_S1x32 : S_.BroadcastsInDim S1x32 (![] : Fin 0 → Fin S1x32.rank)
  bcast_S64x64_S64x1x64x1_0_2 : S64x64.BroadcastsInDim S64x1x64x1 (![0, 2] : Fin 2 → Fin S64x1x64x1.rank)
  bcast_S1x32_S1x1x1x32_1_3 : S1x32.BroadcastsInDim S1x1x1x32 (![1, 3] : Fin 2 → Fin S1x1x1x32.rank)
  bcast_S64x1x64x1_S64x1x64x32_0_1_2_3 : S64x1x64x1.BroadcastsInDim S64x1x64x32 (![0, 1, 2, 3] : Fin 4 → Fin S64x1x64x32.rank)
  bcast_S1x1x1x32_S64x1x64x32_0_1_2_3 : S1x1x1x32.BroadcastsInDim S64x1x64x32 (![0, 1, 2, 3] : Fin 4 → Fin S64x1x64x32.rank)
  shapeCasts_S64x1x64x32_S64x2048 : S64x1x64x32.ShapeCasts S64x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  natLt_1_32 : 1 < 32
  inb_S256x64_S256x64_0_0 : ∀ a, (![0, 0] : Fin 2 → Nat) a + S256x64.size a ≤ S256x64.size a
  h_S256x64 : 0 < S256x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S64x2048x32_S64x65536 : S64x2048x32.ShapeCasts S64x65536
  reducesTo_S64x65536_S64_d1 : S64x65536.ReducesTo [1] S64
  h_S_ : 0 < S_.numel
  shapeCasts_S64x32x2048_S64x65536 : S64x32x2048.ShapeCasts S64x65536
  bcast_S_S64 : S_.BroadcastsInDim S64 (![] : Fin 0 → Fin S64.rank)
  dot_S256x2048_S2048x64_S256x64_1_0_0_1_n_n_wf : DotDims.WF S256x2048 S2048x64 S256x64 [1] [0] [0] [1] [] []
  dot_S256x64_S64x2048_S256x2048_1_0_0_1_n_n_wf : DotDims.WF S256x64 S64x2048 S256x2048 [1] [0] [0] [1] [] []
  dot_S256x2048_S2048x2048_S256x2048_1_1_0_0_n_n_wf : DotDims.WF S256x2048 S2048x2048 S256x2048 [1] [1] [0] [0] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .f32 = 32 ∨ (Rect.block (s := S2048x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S2048x64.size a
  hwx0_7 : ∀ i : grid0.Coords, EltTy.bits .f32 = 32 ∨ (Rect.block (s := S2048x64) S256x64.size (cc0_transform_7 i) (hinb0_7 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S64x32x2048 : Shape := ⟨3, ![64, 32, 2048]⟩
abbrev S64x2048x32 : Shape := ⟨3, ![64, 2048, 32]⟩
abbrev S64x2048 : Shape := ⟨2, ![64, 2048]⟩
abbrev S64 : Shape := ⟨1, ![64]⟩
abbrev S2048x64 : Shape := ⟨2, ![2048, 64]⟩
abbrev S1x64 : Shape := ⟨2, ![1, 64]⟩
abbrev S_ : Shape := ⟨0, ![]⟩
abbrev S2048x64x32 : Shape := ⟨3, ![2048, 64, 32]⟩
abbrev S64x2048x2048 : Shape := ⟨3, ![64, 2048, 2048]⟩
abbrev S64x2048x1 : Shape := ⟨3, ![64, 2048, 1]⟩
abbrev S64x65536 : Shape := ⟨2, ![64, 65536]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S64x32x2048, .f32⟩
  | .hbm, ⟨2, _⟩ => ⟨S64x2048x32, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048x64, .f32⟩
  | .hbm, ⟨7, _⟩ => ⟨S1x64, .f32⟩
  | .hbm, ⟨8, _⟩ => ⟨S2048x64, .f32⟩
  | .hbm, ⟨9, _⟩ => ⟨S2048x64, .f32⟩
  | .hbm, ⟨10, _⟩ => ⟨S_, .f32⟩
  | .hbm, ⟨11, _⟩ => ⟨S2048x64, .f32⟩
  | .hbm, ⟨12, _⟩ => ⟨S2048x64, .i1⟩
  | .hbm, ⟨13, _⟩ => ⟨S2048x64, .f32⟩
  | .hbm, ⟨14, _⟩ => ⟨S2048x64, .f32⟩
  | .hbm, ⟨15, _⟩ => ⟨S2048x64x32, .f32⟩
  | .hbm, ⟨16, _⟩ => ⟨S64x2048x32, .f32⟩
  | .hbm, ⟨17, _⟩ => ⟨S64x2048x2048, .f32⟩
  | .hbm, ⟨18, _⟩ => ⟨S64x2048, .f32⟩
  | .hbm, ⟨19, _⟩ => ⟨S64x2048x1, .f32⟩
  | .hbm, ⟨20, _⟩ => ⟨S64x2048x2048, .f32⟩
  | .hbm, ⟨21, _⟩ => ⟨S64x2048x2048, .f32⟩
  | .hbm, ⟨22, _⟩ => ⟨S_, .f32⟩
  | .hbm, ⟨23, _⟩ => ⟨S2048x2048, .f32⟩
  | .hbm, ⟨24, _⟩ => ⟨S64x65536, .f32⟩
  | .hbm, ⟨25, _⟩ => ⟨S64x65536, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64x65536, .f32⟩
  | .hbm, ⟨30, _⟩ => ⟨S64x65536, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  transposes_S2048x64x32_S64x2048x32_1_0_2 : S2048x64x32.Transposes [1, 0, 2] S64x2048x32
  transposes_S2048x64_S64x2048_1_0 : S2048x64.Transposes [1, 0] S64x2048
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  reducesTo_S64x2048x2048_S2048x2048_d0 : S64x2048x2048.ReducesTo [0] S2048x2048
  h_S_ : 0 < S_.numel
  shapeCasts_S64x2048x32_S64x65536 : S64x2048x32.ShapeCasts S64x65536
  reducesTo_S64x65536_S64_d1 : S64x65536.ReducesTo [1] S64
  shapeCasts_S64x32x2048_S64x65536 : S64x32x2048.ShapeCasts S64x65536
  bcast_S_S64 : S_.BroadcastsInDim S64 (![] : Fin 0 → Fin S64.rank)
  dot_S2048x2048_S2048x64_S2048x64_1_0_0_1_n_n_wf : DotDims.WF S2048x2048 S2048x64 S2048x64 [1] [0] [0] [1] [] []
  dot_S2048x2048_S64x32x2048_S2048x64x32_1_2_0_01_n_n_wf : DotDims.WF S2048x2048 S64x32x2048 S2048x64x32 [1] [2] [0] [0, 1] [] []
  dot_S64x2048x32_S64x2048x32_S64x2048x2048_2_2_1_1_0_0_wf : DotDims.WF S64x2048x32 S64x2048x32 S64x2048x2048 [2] [2] [1] [1] [0] [0]

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x2048_S64x32x2048_S2048x64x32_1_2_0_01_n_n : DotDims S2048x2048 S64x32x2048 S2048x64x32 where
  lhsContracting := [1]
  rhsContracting := [2]
  lhsNonContracting := [0]
  rhsNonContracting := [0, 1]
  lhsBatch := []
  rhsBatch := []
  wf := dot_S2048x2048_S64x32x2048_S2048x64x32_1_2_0_01_n_n_wf
def dot_S64x2048x32_S64x2048x32_S64x2048x2048_2_2_1_1_0_0 : DotDims S64x2048x32 S64x2048x32 S64x2048x2048 where
  lhsContracting := [2]
  rhsContracting := [2]
  lhsNonContracting := [1]
  rhsNonContracting := [1]
  lhsBatch := [0]
  rhsBatch := [0]
  wf := dot_S64x2048x32_S64x2048x32_S64x2048x2048_2_2_1_1_0_0_wf

class Facts : Prop extends Facts₀ where

variable [Facts]
-- ==== Proof.Mixture.lean ====
/-
  The gated low-rank mixture, as functions of the argument arrays on the extended reals.

  For a batch row b and a transform n the pre-activation is  a(b,n) = Σ_k x(b,k)·e(n,k) − β(n),  and the gate is the
  hard threshold  g(b,n) = a(b,n)·[a(b,n) > 0].  Each transform projects the row to rank 32,
  p(b,n,r) = Σ_k x(b,k)·V(n,r,k),  and lifts it back with U.  The output is

      out(b,d) = Σ_n ( Σ_r p(b,n,r)·U(n,d,r) ) · g(b,n)                                  (transform by transform)

  A second arrangement stacks the 64·32 rank coordinates into one axis j = 32·n + r and spreads the gate over it with
  the 0/1 matrix E(n',j) = [n' = j / 32]:

      out'(b,d) = Σ_j ( p(b, j/32, j%32) · Σ_n' g(b,n')·E(n',j) ) · U(j/32, d, j%32)      (stacked)

  The two agree whenever every entry of the five arrays is a real number: the inner sum against E selects g(b, j/32),
  the stacked axis splits as (n, r), and the gate, which does not depend on r, moves out of the sum over r — the one
  step that uses distributivity, which is why finiteness is asked.
-/
import Idealize.ShloMosaic.PureOps.Ideal
import Idealize.ShloMosaic.PureOps.Ideal.Laws
import Idealize.ShloMosaic.Lib.ValueIdx

noncomputable section

open scoped BigOperators

namespace Cert.Mixture

open Idealize.ShloMosaic Idealize.ShloMosaic.ValueIdx

/-- x : batch × model. -/
abbrev Sx : Shape := ⟨2, ![2048, 2048]⟩
/-- V : transform × rank × model. -/
abbrev Sv : Shape := ⟨3, ![64, 32, 2048]⟩
/-- U : transform × model × rank. -/
abbrev Su : Shape := ⟨3, ![64, 2048, 32]⟩
/-- The encoder: transform × model. -/
abbrev Se : Shape := ⟨2, ![64, 2048]⟩
/-- The bias: one entry per transform. -/
abbrev Sb : Shape := ⟨1, ![64]⟩
/-- The gate: batch × transform. -/
abbrev Sg : Shape := ⟨2, ![2048, 64]⟩

/-- The transform a stacked rank coordinate belongs to. -/
def hi (j : Fin 2048) : Fin 64 := ⟨j.val / 32, by have := j.isLt; omega⟩
/-- Its rank coordinate inside that transform. -/
def lo (j : Fin 2048) : Fin 32 := ⟨j.val % 32, by omega⟩

/-- The indicator of "above the threshold word", as the extended real 0 or 1. -/
def ind (a : EReal) : EReal := (((Ideal.cmp .ogt a (Ideal.ofBits .f32 0x00000000#32)).toNat : ℝ) : EReal)

/-! ### Real-valued entries and finite sums -/

/-- The coercion of the reals into the extended reals carries a finite sum to the sum of the coercions. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real entries is a real number. -/
theorem real_sum_mul {ι : Type} [Fintype ι] (f g : ι → EReal) (hf : ∀ k, ∃ r : ℝ, f k = (r : EReal))
    (hg : ∀ k, ∃ r : ℝ, g k = (r : EReal)) : ∃ r : ℝ, ∑ k, f k * g k = (r : EReal) := by
  choose F hF using hf
  choose G hG using hg
  refine ⟨∑ k, F k * G k, ?_⟩
  rw [coe_finsum]
  refine Finset.sum_congr rfl (fun k _ => ?_)
  rw [hF k, hG k, EReal.coe_mul]

/-- Multiplying against the 0/1 row of the spreading matrix and summing selects one entry.  This holds for every
extended real, because a · 0 = 0 and a · 1 = a have no exceptions. -/
theorem sum_select (g : Fin 64 → EReal) (m : Fin 64) :
    ∑ n' : Fin 64, g n' * (if n' = m then (1 : EReal) else 0) = g m := by
  have h : ∀ n' : Fin 64, g n' * (if n' = m then (1 : EReal) else 0) = if n' = m then g n' else 0 := by
    intro n'
    split_ifs
    · exact mul_one _
    · exact mul_zero _
  rw [Finset.sum_congr rfl (fun n' _ => h n')]
  rw [Finset.sum_ite_eq' Finset.univ m g]
  simp

/-- The stacked axis is the product of the transform axis and the rank axis: j = 32·n + r. -/
def stackEquiv : Fin 64 × Fin 32 ≃ Fin 2048 where
  toFun p := ⟨32 * p.1.val + p.2.val, by have := p.1.isLt; have := p.2.isLt; omega⟩
  invFun j := (hi j, lo j)
  left_inv p := by
    rcases p with ⟨⟨n, hn⟩, ⟨r, hr⟩⟩
    refine Prod.ext ?_ ?_
    · apply Fin.ext
      show (32 * n + r) / 32 = n
      omega
    · apply Fin.ext
      show (32 * n + r) % 32 = r
      omega
  right_inv j := by
    rcases j with ⟨j, hj⟩
    apply Fin.ext
    show 32 * (j / 32) + j % 32 = j
    omega

/-- A sum over the stacked axis is the double sum over transform and rank. -/
theorem sum_stack (F : Fin 64 → Fin 32 → EReal) :
    ∑ j : Fin 2048, F (hi j) (lo j) = ∑ n : Fin 64, ∑ r : Fin 32, F n r := by
  rw [← Fintype.sum_prod_type' F]
  exact Fintype.sum_equiv stackEquiv.symm (fun j => F (hi j) (lo j)) (fun p => F p.1 p.2) (fun _ => rfl)

/-- A factor that does not depend on the rank coordinate moves out of the sum over the rank.  This is the
distributive law, so every term is asked to be a real number. -/
theorem sum_rank_factor (p u : Fin 32 → EReal) (g : EReal) (hp : ∀ r, ∃ a : ℝ, p r = (a : EReal))
    (hu : ∀ r, ∃ a : ℝ, u r = (a : EReal)) (hg : ∃ a : ℝ, g = (a : EReal)) :
    ∑ r : Fin 32, (p r * g) * u r = (∑ r : Fin 32, p r * u r) * g := by
  choose P hP using hp
  choose W hW using hu
  obtain ⟨G, rfl⟩ := hg
  have hl : ∑ r : Fin 32, (p r * (G : EReal)) * u r = ((∑ r : Fin 32, (P r * G) * W r : ℝ) : EReal) := by
    rw [coe_finsum]
    refine Finset.sum_congr rfl (fun r _ => ?_)
    rw [hP r, hW r, EReal.coe_mul, EReal.coe_mul]
  have hr : ∑ r : Fin 32, p r * u r = ((∑ r : Fin 32, P r * W r : ℝ) : EReal) := by
    rw [coe_finsum]
    refine Finset.sum_congr rfl (fun r _ => ?_)
    rw [hP r, hW r, EReal.coe_mul]
  rw [hl, hr, ← EReal.coe_mul]
  refine congrArg (fun t : ℝ => (t : EReal)) ?_
  rw [Finset.sum_mul]
  refine Finset.sum_congr rfl (fun r _ => ?_)
  ring

section
variable (x : Sx.Idx → EReal) (V : Sv.Idx → EReal) (U : Su.Idx → EReal) (e : Se.Idx → EReal) (β : Sb.Idx → EReal)

/-- The pre-activation of row b for transform n. -/
def preAct (b : Fin 2048) (n : Fin 64) : EReal := (∑ k : Fin 2048, x (ix2 b k) * e (ix2 n k)) - β (ix1 n)

/-- The gate: the pre-activation where it is above the threshold, zero elsewhere. -/
def gate (b : Fin 2048) (n : Fin 64) : EReal := preAct x e β b n * ind (preAct x e β b n)

/-- Row b projected by transform n to its rank coordinate r. -/
def proj (b : Fin 2048) (n : Fin 64) (r : Fin 32) : EReal := ∑ k : Fin 2048, x (ix2 b k) * V (ix3 n r k)

/-- The output, transform by transform. -/
def outByTransform (b d : Fin 2048) : EReal :=
  ∑ n : Fin 64, (∑ r : Fin 32, proj x V b n r * U (ix3 n d r)) * gate x e β b n

/-- The output over the stacked rank axis, the gate spread by the 0/1 matrix. -/
def outStacked (b d : Fin 2048) : EReal :=
  ∑ j : Fin 2048, (proj x V b (hi j) (lo j) * ∑ n' : Fin 64, gate x e β b n' * (if n' = hi j then (1 : EReal) else 0))
    * U (ix3 (hi j) d (lo j))

/-- The gate array. -/
def gateArr : Sg.Idx → EReal := fun i => gate x e β (i 0) (i 1)
/-- The output array, transform by transform. -/
def outArr : Sx.Idx → EReal := fun i => outByTransform x V U e β (i 0) (i 1)
/-- The output array over the stacked axis. -/
def outStackedArr : Sx.Idx → EReal := fun i => outStacked x V U e β (i 0) (i 1)

/-- With real entries every projection is a real number. -/
theorem proj_real (hx : ∀ i, ∃ r : ℝ, x i = (r : EReal)) (hV : ∀ i, ∃ r : ℝ, V i = (r : EReal))
    (b : Fin 2048) (n : Fin 64) (r : Fin 32) : ∃ a : ℝ, proj x V b n r = (a : EReal) :=
  real_sum_mul (fun k : Fin 2048 => x (ix2 b k)) (fun k : Fin 2048 => V (ix3 n r k)) (fun k => hx _) (fun k => hV _)

/-- With real entries every gate value is a real number: the pre-activation is a finite sum of products of reals
minus a real, and the indicator is 0 or 1. -/
theorem gate_real (hx : ∀ i, ∃ r : ℝ, x i = (r : EReal)) (he : ∀ i, ∃ r : ℝ, e i = (r : EReal))
    (hβ : ∀ i, ∃ r : ℝ, β i = (r : EReal)) (b : Fin 2048) (n : Fin 64) :
    ∃ a : ℝ, gate x e β b n = (a : EReal) := by
  obtain ⟨s, hs⟩ := real_sum_mul (fun k : Fin 2048 => x (ix2 b k)) (fun k : Fin 2048 => e (ix2 n k))
    (fun k => hx _) (fun k => he _)
  obtain ⟨c, hc⟩ := hβ (ix1 n)
  have hpre : preAct x e β b n = ((s - c : ℝ) : EReal) := by
    unfold preAct
    rw [hs, hc, EReal.coe_sub]
  refine ⟨(s - c) * (((Ideal.cmp .ogt ((s - c : ℝ) : EReal) (Ideal.ofBits .f32 0x00000000#32)).toNat : ℝ)), ?_⟩
  unfold gate
  rw [hpre, EReal.coe_mul]
  rfl

/-- With real entries the two arrangements of the output agree. -/
theorem outStacked_eq (hx : ∀ i, ∃ r : ℝ, x i = (r : EReal)) (hV : ∀ i, ∃ r : ℝ, V i = (r : EReal))
    (hU : ∀ i, ∃ r : ℝ, U i = (r : EReal)) (he : ∀ i, ∃ r : ℝ, e i = (r : EReal)) (hβ : ∀ i, ∃ r : ℝ, β i = (r : EReal))
    (b d : Fin 2048) : outStacked x V U e β b d = outByTransform x V U e β b d := by
  unfold outStacked outByTransform
  have h1 : ∀ j : Fin 2048,
      (proj x V b (hi j) (lo j) * ∑ n' : Fin 64, gate x e β b n' * (if n' = hi j then (1 : EReal) else 0))
        * U (ix3 (hi j) d (lo j))
      = (proj x V b (hi j) (lo j) * gate x e β b (hi j)) * U (ix3 (hi j) d (lo j)) := by
    intro j
    rw [sum_select (fun n' => gate x e β b n') (hi j)]
  refine (Finset.sum_congr rfl (fun j _ => h1 j)).trans ?_
  refine (sum_stack (fun n r => (proj x V b n r * gate x e β b n) * U (ix3 n d r))).trans ?_
  refine Finset.sum_congr rfl (fun n _ => ?_)
  exact sum_rank_factor (fun r => proj x V b n r) (fun r => U (ix3 n d r)) (gate x e β b n)
    (fun r => proj_real x V hx hV b n r) (fun r => hU _) (gate_real x e β hx he hβ b n)

/-- The same for the whole arrays. -/
theorem outStackedArr_eq (hx : ∀ i, ∃ r : ℝ, x i = (r : EReal)) (hV : ∀ i, ∃ r : ℝ, V i = (r : EReal))
    (hU : ∀ i, ∃ r : ℝ, U i = (r : EReal)) (he : ∀ i, ∃ r : ℝ, e i = (r : EReal)) (hβ : ∀ i, ∃ r : ℝ, β i = (r : EReal)) :
    outStackedArr x V U e β = outArr x V U e β :=
  funext fun i => outStacked_eq x V U e β hx hV hU he hβ (i 0) (i 1)

end

end Cert.Mixture

end
-- ==== Proof.Finite.lean ====
/-
  Under the precondition every entry of the five argument arrays is a real number: the precondition is the
  conjunction of five "all entries have absolute value below +∞", and an extended real whose absolute value is
  below +∞ is neither infinity.
-/
import proofs.«133590_j55645596287642_1_alg».proof.Pre_finite_inputs
import proofs.«133590_j55645596287642_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Finite

open Cert.Pre_finite_inputs Idealize.ShloMosaic Idealize.ShloMosaic.ValueIdx

/-- The 32-bit word with all eight exponent bits set, sign clear and zero fraction denotes +∞. -/
theorem inf_word : Ideal.ofBits .f32 0x7F800000#32 = (⊤ : EReal) := by
  simp [Ideal.ofBits, Ideal.ieee]

/-- An extended real a whose absolute value max a (-a) compares strictly below +∞ is a real number:
    a = +∞ gives max = +∞, and a = -∞ gives -a = +∞, so both infinities are excluded. -/
theorem real_of_abs_lt_inf (a : Ideal .f32)
    (h : FloatOps.cmpf (F := Ideal) (φ := .f32) .olt (FloatOps.absf a) (Ideal.ofBits .f32 0x7F800000#32) = 1#1) :
    ∃ r : ℝ, a = (r : EReal) := by
  rw [Ideal.cmpf_def, Ideal.absf_def, inf_word] at h
  have hlt : max a (-a) < (⊤ : EReal) := by
    by_contra hc
    simp [Ideal.cmp, hc] at h
  have h1 : a ≠ (⊤ : EReal) := by
    rintro rfl
    simp at hlt
  have h2 : a ≠ (⊥ : EReal) := by
    rintro rfl
    simp at hlt
  induction a using EReal.rec with
  | bot => exact absurd rfl h2
  | coe r => exact ⟨r, rfl⟩
  | top => exact absurd rfl h1

/-- The rank-zero shape has exactly one index (a function out of the empty set of axes). -/
theorem subsingleton_scalar_idx : Subsingleton S_.Idx := ⟨fun a b => funext fun d => d.elim0⟩

/-- All five arrays hold reals when the precondition evaluates to 1. -/
theorem real_of_pre (x : FVec Ideal S2048x2048 .f32) (V : FVec Ideal S64x32x2048 .f32) (U : FVec Ideal S64x2048x32 .f32)
    (e : FVec Ideal S64x2048 .f32) (β : FVec Ideal S64 .f32)
    (h : Cert.Pre_finite_inputs.fn (F := Ideal) x V U e β = fun _ => 1#1) :
    (∀ i, ∃ r : ℝ, x i = (r : EReal)) ∧ (∀ i, ∃ r : ℝ, V i = (r : EReal)) ∧ (∀ i, ∃ r : ℝ, U i = (r : EReal))
      ∧ (∀ i, ∃ r : ℝ, e i = (r : EReal)) ∧ (∀ i, ∃ r : ℝ, β i = (r : EReal)) := by
  -- The result has one index; read the precondition there and open its chain of operations.
  haveI : Subsingleton S_.Idx := subsingleton_scalar_idx
  have h0 := congrFun h ValueIdx.ix0
  unfold Cert.Pre_finite_inputs.fn Cert.Pre_finite_inputs.fn_part1 at h0
  dsimp only at h0
  -- A conjunction of one-bit words is 1 exactly when each conjunct is: ((((r0 ∧ r1) ∧ r2) ∧ r3) ∧ r4).
  obtain ⟨h0123, h4⟩ := IntOp.andi_eq_one.1 h0
  obtain ⟨h012, h3⟩ := IntOp.andi_eq_one.1 h0123
  obtain ⟨h01, h2⟩ := IntOp.andi_eq_one.1 h012
  obtain ⟨hx, h1⟩ := IntOp.andi_eq_one.1 h01
  -- Each conjunct is an and-reduction over all axes, so every entry's comparison is 1; then the element fact.
  refine ⟨fun i => ?_, fun i => ?_, fun i => ?_, fun i => ?_, fun i => ?_⟩
  · exact real_of_abs_lt_inf (x i) (Host.reduce_andi_all _ _ _ _ _ hx i)
  · exact real_of_abs_lt_inf (V i) (Host.reduce_andi_all _ _ _ _ _ h1 i)
  · exact real_of_abs_lt_inf (U i) (Host.reduce_andi_all _ _ _ _ _ h2 i)
  · exact real_of_abs_lt_inf (e i) (Host.reduce_andi_all _ _ _ _ _ h3 i)
  · exact real_of_abs_lt_inf (β i) (Host.reduce_andi_all _ _ _ _ _ h4 i)

end Cert.Pre_finite_inputs.Finite

end
-- ==== Proof.RefSide.lean ====
/-
  The reference's first two results, read one operation at a time, are the gate array and the output array taken
  transform by transform.
-/
import proofs.«133590_j55645596287642_1_alg».proof.Proof.Gen.ReferenceIdeal.Read
import proofs.«133590_j55645596287642_1_alg».proof.Proof.Mixture

noncomputable section

open scoped BigOperators

namespace Cert.ReferenceIdeal.RefSide

open Cert.ReferenceIdeal Cert.ReferenceIdeal.Gen Cert.ReferenceIdeal.Read Idealize.ShloMosaic Idealize.ShloMosaic.ValueIdx

/-- The subtraction stage at batch row b and transform n is the pre-activation: the contraction reads x along
    the row and the transposed encoder along the transform, and the doubly broadcast bias reads its entry n. -/
theorem ref_preAct (x : S2048x2048.Idx → EReal) (e : S64x2048.Idx → EReal) (β : S64.Idx → EReal)
    (b : Fin 2048) (n : Fin 64) :
    val_main_v4 (F := Ideal) x e β (ix2 b n) = Cert.Mixture.preAct x e β b n := by
  rw [val_main_v4_apply, val_main_v1_apply, val_main_v3_apply, val_main_v2_apply]
  unfold Cert.Mixture.preAct
  refine (Ideal.subf_def (φ := .f32) _ _).trans ?_
  refine congrArg₂ (· - ·) (Finset.sum_congr rfl fun k _ => ?_) ?_
  · rw [val_main_v0_apply]
    refine congrArg₂ (· * ·) (congrArg x ?_) (congrArg e ?_)
    · exact funext fun a => Fin.ext (by match a with | ⟨0, _⟩ => rfl | ⟨1, _⟩ => rfl)
    · exact funext fun a => Fin.ext (by match a with | ⟨0, _⟩ => rfl | ⟨1, _⟩ => rfl)
  · exact congrArg β (funext fun a => Fin.ext (by match a with | ⟨0, _⟩ => rfl))

/-- The reference's gate is the gate array. -/
theorem ref_gate (x : S2048x2048.Idx → EReal) (e : S64x2048.Idx → EReal) (β : S64.Idx → EReal) :
    val_main_v8 (F := Ideal) x e β = Cert.Mixture.gateArr x e β := by
  funext i
  obtain ⟨b, n, rfl⟩ : ∃ b n, i = ix2 b n := ⟨i 0, i 1, eq_ix2 i⟩
  rw [val_main_v8_apply, val_main_v7_apply, val_main_v6_apply, val_main_v5_apply, val_main_cst_apply,
    ref_preAct x e β b n]
  rfl

/-- The reference's output is the output array, transform by transform. -/
theorem ref_out (x : S2048x2048.Idx → EReal) (V : S64x32x2048.Idx → EReal) (U : S64x2048x32.Idx → EReal)
    (e : S64x2048.Idx → EReal) (β : S64.Idx → EReal) :
    val_main_v16 (F := Ideal) x V U e β = Cert.Mixture.outArr x V U e β := by
  funext i
  obtain ⟨b, d, rfl⟩ : ∃ b d, i = ix2 b d := ⟨i 0, i 1, eq_ix2 i⟩
  -- the sum over transforms starts from the zero word, which is the real number zero
  rw [val_main_v16_apply, val_main_cst_0_apply, Ideal.ofBits_def, Ideal.ofBits_zero_f32, zero_add]
  show _ = Cert.Mixture.outByTransform x V U e β b d
  unfold Cert.Mixture.outByTransform
  refine Finset.sum_congr rfl fun n _ => ?_
  rw [val_main_v15_apply]
  refine (Ideal.mulf_def (φ := .f32) _ _).trans ?_
  refine congrArg₂ (· * ·) ?_ ?_
  · -- the lifted projection: the rank contraction of the transposed projection against U
    rw [val_main_v11_apply]
    refine Finset.sum_congr rfl fun r _ => ?_
    rw [val_main_v10_apply, val_main_v9_apply]
    unfold Cert.Mixture.proj
    refine congrArg₂ (· * ·) (Finset.sum_congr rfl fun k _ => congrArg₂ (· * ·) (congrArg x ?_) (congrArg V ?_))
      (congrArg U ?_)
    · exact funext fun a => Fin.ext (by match a with | ⟨0, _⟩ => rfl | ⟨1, _⟩ => rfl)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
  · -- the gate, transposed and broadcast along the output column, read back at (b, n)
    rw [val_main_v14_apply, val_main_v13_apply, val_main_v12_apply]
    refine (congrArg (val_main_v8 (F := Ideal) x e β) ?_).trans (congrFun (ref_gate x e β) (ix2 b n))
    exact funext fun a => Fin.ext (by match a with | ⟨0, _⟩ => rfl | ⟨1, _⟩ => rfl)

end Cert.ReferenceIdeal.RefSide

end
-- ==== Proof.HostTail.lean ====
/-
  The third result: the product of the two Frobenius norms over 256, computed by the host lines after the region
  from U and V as launched (the region writes neither).
-/
import proofs.«133590_j55645596287642_1_alg».proof.Proof.Gen.KernelIdeal.Frame

noncomputable section

namespace Cert.KernelIdeal.HostTail

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The norms' product over 256 as one term of U and V. -/
def norms (u : (⟨S64x2048x32, .f32⟩ : BufTy).Contents (Elt F)) (v : (⟨S64x32x2048, .f32⟩ : BufTy).Contents (Elt F)) :
    (⟨S64, .f32⟩ : BufTy).Contents (Elt F) :=
  Host.divf (mulf (Host.sqrt (Host.reduceAdd (mulf (shapeCast _ u shapeCasts_S64x2048x32_S64x65536) (shapeCast _ u shapeCasts_S64x2048x32_S64x65536)) (constant S_ .f32 0x00000000#32) reducesTo_S64x65536_S64_d1 h_S_))
      (Host.sqrt (Host.reduceAdd (mulf (shapeCast _ v shapeCasts_S64x32x2048_S64x65536) (shapeCast _ v shapeCasts_S64x32x2048_S64x65536)) (constant S_ .f32 0x00000000#32) reducesTo_S64x65536_S64_d1 h_S_)))
    (broadcastInDim S64 ![] bcast_S_S64 (constant S_ .f32 0x43800000#32))

/-- What the lines after the region leave in the third result. -/
theorem tail_norms (c : Dev nD) :
    Pipeline.afterTail₀ cfgs (dats m) 0 (V0 m) [hostOps1, hostOps1_1, hostOps1_2, hostOps1_3, hostOps1_4] c main_v23
      = norms (m ((c : Thread nD τ).loc main_arg2)) (m ((c : Thread nD τ).loc main_arg1)) := by
  unfold Pipeline.afterTail₀
  simp only [hostOps1, hostOps1_1, hostOps1_2, hostOps1_3, hostOps1_4, List.flatten_cons, List.flatten_nil, List.append_nil,
    List.cons_append, List.nil_append]
  after_results
  rw [Pipeline.withArrays_of_ne _ c (V0 m c) _ main_arg2 (by exact (by decide : ∀ w, Pipeline.arrRef spec0 w ≠ main_arg2)),
    Pipeline.withArrays_of_ne _ c (V0 m c) _ main_arg1 (by exact (by decide : ∀ w, Pipeline.arrRef spec0 w ≠ main_arg1)),
    show V0 m c (Proc.devRef .tc main_arg2) = m ((c : Thread nD τ).loc main_arg2) from V_main_arg2 m c,
    show V0 m c (Proc.devRef .tc main_arg1) = m ((c : Thread nD τ).loc main_arg1) from V_main_arg1 m c]
  rfl

end Cert.KernelIdeal.HostTail

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Body.lean ====
/-
  The kernel body's two stored blocks, read at an entry, on the extended reals.

  The gate block: at (p, n) the row's product with the transposed encoder minus the bias row, times the indicator
  of being above the threshold (the body widens the one-bit comparison to a word and reads it as a signed integer:
  a word that is 0 or 1 reads as the real 0 or 1 either way).
  The output block: at (p, d) the sum over the stacked rank axis j of
  (row · stacked-V row j) · (gate row · column j of the 0/1 matrix) · stacked-U(j, d).
-/
import proofs.«133590_j55645596287642_1_alg».proof.Proof.Gen.KernelIdeal.Skeleton
import proofs.«133590_j55645596287642_1_alg».proof.Proof.Mixture
import proofs.«133590_j55645596287642_1_alg».proof.Proof.LibPlainDot
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The precision annotation plays no part on the extended reals: the encoder product at an entry. -/
theorem encDot_apply (xb : FVec Ideal S256x2048 .f32) (eT : FVec Ideal S2048x64 .f32) (p : Fin 256) (n : Fin 64) :
    (matmul dot_S256x2048_S2048x64_S256x64_1_0_0_1_n_n (some .fp32) xb eT (constant S256x64 .f32 0x00000000#32)
        : FVec Ideal S256x64 .f32) (ix2 p n)
      = ∑ k : Fin 2048, xb (ix2 p k) * eT (ix2 k n) :=
  PlainDot.matmul_zero_apply 256 2048 64 xb eT p n

/-- The bias row spread over the 256 rows reads the row's entry of the same column. -/
theorem bias_apply (β2 : FVec Ideal S1x64 .f32) (p : Fin 256) (n : Fin 64) :
    (broadcastTo S256x64 β2 broadcasts_S1x64_S256x64 : FVec Ideal S256x64 .f32) (ix2 p n) = β2 (ix2 (0 : Fin 1) n) := by
  refine broadcastTo_apply β2 broadcasts_S1x64_S256x64 (ix2 p n) (ix2 (0 : Fin 1) n) (fun a => ?_)
  match a with
  | ⟨0, _⟩ => rfl
  | ⟨1, _⟩ => rfl

/-- The pre-activation at an entry: the row's product with the transposed encoder minus the bias. -/
theorem pre_apply (xb : FVec Ideal S256x2048 .f32) (eT : FVec Ideal S2048x64 .f32) (β2 : FVec Ideal S1x64 .f32)
    (p : Fin 256) (n : Fin 64) :
    (subf (matmul dot_S256x2048_S2048x64_S256x64_1_0_0_1_n_n (some .fp32) xb
            (shapeCast S2048x64 eT shapeCasts_S2048x64_S2048x64) (constant S256x64 .f32 0x00000000#32))
          (broadcastTo S256x64 (shapeCast S1x64 β2 shapeCasts_S1x64_S1x64) broadcasts_S1x64_S256x64)
        : FVec Ideal S256x64 .f32) (ix2 p n)
      = (∑ k : Fin 2048, xb (ix2 p k) * eT (ix2 k n)) - β2 (ix2 (0 : Fin 1) n) := by
  rw [shapeCast_self, shapeCast_self, subf_apply, encDot_apply, bias_apply]

/-- A one-bit word widened to 32 bits reads the same signed as unsigned: it is 0 or 1. -/
theorem bit_signed (c : BitVec 1) : (c.setWidth 32).toInt = (c.toNat : Int) := by
  rcases BitVec.eq_zero_or_eq_one c with rfl | rfl <;> rfl

/-- The comparison bit, widened and converted as a signed integer, is the indicator of being above the threshold. -/
theorem ind_apply (a : Ideal .f32) :
    (FloatOps.sitofp (F := Ideal) .f32 ((FloatOps.cmpf .ogt a (FloatOps.ofBits (F := Ideal) .f32 0x00000000#32)).setWidth 32)
        : Ideal .f32)
      = Cert.Mixture.ind a := by
  unfold Cert.Mixture.ind
  show ((((Ideal.cmp .ogt a (Ideal.ofBits .f32 0x00000000#32)).setWidth 32).toInt : ℝ) : EReal) = _
  rw [bit_signed]
  norm_cast

/-- A block times its own widened comparison bit: at an entry, the value times its indicator. -/
theorem gate_of_pre (v : FVec Ideal S256x64 .f32) (i : S256x64.Idx) :
    (mulf v (sitofp .f32 (extui 32 (cmpf .ogt v (broadcast S256x64 (FloatOps.ofBits (F := Ideal) .f32 0x00000000#32))) natLt_1_32))
        : FVec Ideal S256x64 .f32) i
      = v i * Cert.Mixture.ind (v i) :=
  congrArg (v i * ·) (ind_apply (v i))

/-- The gate block at an entry. -/
theorem gateBlock_apply (xb : Vec Ideal S256x2048 .f32) (eT : Vec Ideal S2048x64 .f32) (β2 : Vec Ideal S1x64 .f32)
    (p : Fin 256) (n : Fin 64) :
    k0_pay1 (F := Ideal) xb eT β2 (ix2 p n)
      = ((∑ k : Fin 2048, xb (ix2 p k) * eT (ix2 k n)) - β2 (ix2 (0 : Fin 1) n))
          * Cert.Mixture.ind ((∑ k : Fin 2048, xb (ix2 p k) * eT (ix2 k n)) - β2 (ix2 (0 : Fin 1) n)) := by
  unfold Gen.k0_pay1
  refine (gate_of_pre _ _).trans ?_
  rw [pre_apply]

/-- The product with the stacked V contracts both operands along their second axis. Its left operand's row
    coordinate at output entry i is i's row. -/
theorem vDot_lhs_row (i : S256x2048.Idx) (c : dot_S256x2048_S2048x2048_S256x2048_1_1_0_0_n_n.contr.Idx) :
    (dot_S256x2048_S2048x2048_S256x2048_1_1_0_0_n_n.lhsIdx i c 0).val = (i 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl

/-- Its left operand's column coordinate is the contraction index. -/
theorem vDot_lhs_col (i : S256x2048.Idx) (c : dot_S256x2048_S2048x2048_S256x2048_1_1_0_0_n_n.contr.Idx) :
    (dot_S256x2048_S2048x2048_S256x2048_1_1_0_0_n_n.lhsIdx i c 1).val = (c ⟨0, by decide⟩).val :=
  dot_S256x2048_S2048x2048_S256x2048_1_1_0_0_n_n.lhsIdx_val_of_single rfl i c

/-- Its right operand's row coordinate at output entry i is i's column. -/
theorem vDot_rhs_row (i : S256x2048.Idx) (c : dot_S256x2048_S2048x2048_S256x2048_1_1_0_0_n_n.contr.Idx) :
    (dot_S256x2048_S2048x2048_S256x2048_1_1_0_0_n_n.rhsIdx i c 0).val = (i 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl

/-- Its right operand's column coordinate is the contraction index. -/
theorem vDot_rhs_col (i : S256x2048.Idx) (c : dot_S256x2048_S2048x2048_S256x2048_1_1_0_0_n_n.contr.Idx) :
    (dot_S256x2048_S2048x2048_S256x2048_1_1_0_0_n_n.rhsIdx i c 1).val = (c ⟨0, by decide⟩).val :=
  dot_S256x2048_S2048x2048_S256x2048_1_1_0_0_n_n.rhsIdx_val_of_single rfl i c

/-- The product with the stacked V into the zero array, at entry (p, j), is the sum over k of lhs (p, k) · rhs (j, k):
    the row times the transposed stack. -/
theorem vDot_apply {φ₁ φ₂ : FTy} (lhs : FVec Ideal S256x2048 φ₁) (rhs : FVec Ideal S2048x2048 φ₂) (p : Fin 256) (j : Fin 2048) :
    (matmul dot_S256x2048_S2048x2048_S256x2048_1_1_0_0_n_n none lhs rhs (constant S256x2048 .f32 0x00000000#32)
        : FVec Ideal S256x2048 .f32) (ix2 p j)
      = ∑ k : Fin 2048, lhs (ix2 p k) * rhs (ix2 j k) := by
  show FloatOps.matmul dot_S256x2048_S2048x2048_S256x2048_1_1_0_0_n_n none lhs rhs (constant S256x2048 .f32 0x00000000#32) (ix2 p j) = _
  rw [Ideal.matmul_constant_zero_apply,
    ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p j)
      ((contrEquiv1 dot_S256x2048_S2048x2048_S256x2048_1_1_0_0_n_n 2048 rfl rfl).symm k) = ix2 p k :=
    funext fun a => Fin.ext (by
      match a with
      | ⟨0, _⟩ => exact vDot_lhs_row _ _
      | ⟨1, _⟩ => exact (vDot_lhs_col _ _).trans hk)
  have er : dot_S256x2048_S2048x2048_S256x2048_1_1_0_0_n_n.rhsIdx (ix2 p j)
      ((contrEquiv1 dot_S256x2048_S2048x2048_S256x2048_1_1_0_0_n_n 2048 rfl rfl).symm k) = ix2 j k :=
    funext fun a => Fin.ext (by
      match a with
      | ⟨0, _⟩ => exact vDot_rhs_row _ _
      | ⟨1, _⟩ => exact (vDot_rhs_col _ _).trans hk)
  rw [el, er]

/-- The gate block spread over the stacked rank axis by the 0/1 matrix, at entry (p, j). -/
theorem spread_apply (g : FVec Ideal S256x64 .bf16) (E : FVec Ideal S64x2048 .bf16) (p : Fin 256) (j : Fin 2048) :
    (matmul dot_S256x64_S64x2048_S256x2048_1_0_0_1_n_n none g E (constant S256x2048 .f32 0x00000000#32)
        : FVec Ideal S256x2048 .f32) (ix2 p j)
      = ∑ n' : Fin 64, g (ix2 p n') * E (ix2 n' j) :=
  PlainDot.matmul_zero_apply 256 64 2048 g E p j

/-- The lift by the stacked U, at entry (p, d). -/
theorem lift_apply (h : FVec Ideal S256x2048 .bf16) (Us : FVec Ideal S2048x2048 .bf16) (p : Fin 256) (d : Fin 2048) :
    (matmul dot_S256x2048_S2048x2048_S256x2048_1_0_0_1_n_n none h Us (constant S256x2048 .f32 0x00000000#32)
        : FVec Ideal S256x2048 .f32) (ix2 p d)
      = ∑ j : Fin 2048, h (ix2 p j) * Us (ix2 j d) :=
  PlainDot.matmul_zero_apply 256 2048 2048 h Us p d

/-- The output block at an entry. -/
theorem outBlock_apply (xb : Vec Ideal S256x2048 .f32) (eT : Vec Ideal S2048x64 .f32) (β2 : Vec Ideal S1x64 .f32)
    (E : Vec Ideal S64x2048 .bf16) (Vs : Vec Ideal S2048x2048 .bf16) (Us : Vec Ideal S2048x2048 .bf16)
    (p : Fin 256) (d : Fin 2048) :
    k0_pay2 (F := Ideal) xb eT β2 E Vs Us (ix2 p d)
      = ∑ j : Fin 2048, ((∑ k : Fin 2048, xb (ix2 p k) * Vs (ix2 j k))
            * ∑ n' : Fin 64, k0_pay1 (F := Ideal) xb eT β2 (ix2 p n') * E (ix2 n' j)) * Us (ix2 j d) := by
  unfold Gen.k0_pay2
  rw [shapeCast_self, shapeCast_self, shapeCast_self]
  refine (lift_apply _ _ p d).trans ?_
  refine Finset.sum_congr rfl fun j _ => congrArg (· * Us (ix2 j d)) ?_
  rw [truncf_apply, mulf_apply, vDot_apply, spread_apply]
  rfl

end Cert.KernelIdeal.Body

end
-- ==== Proof.HostPrefix.lean ====
/-
  What the host lines before the region leave in the five arrays the kernel reads besides x, at an entry.

  The stacked V is V reshaped: row j = 32·n + r of it is V(n, r, ·). The stacked U is U with its last two axes
  exchanged, then reshaped: row j of it is U(n, ·, r). The encoder arrives transposed, the bias as one row.
  The 0/1 matrix is the Kronecker product of the 64×64 identity with a row of 32 ones: entry (n', j) is 1 when
  n' = j / 32 and 0 otherwise. The three narrowing conversions are the identity on the extended reals.
-/
import proofs.«133590_j55645596287642_1_alg».proof.Proof.Gen.KernelIdeal.Frame
import proofs.«133590_j55645596287642_1_alg».proof.Proof.Mixture
import Idealize.ShloMosaic.Lib.Pipeline.Value
import Idealize.ShloMosaic.Lib.ValueIdx
import Idealize.ShloMosaic.Lib.StableHlo.Predicate

noncomputable section

namespace Cert.KernelIdeal.HostPrefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The stacked V as a whole array: V reshaped to rows of length 2048, then narrowed. -/
theorem stackedV_term (c : Dev nD) :
    (V m c main_v13 : S2048x2048.Idx → EReal)
      = truncf (F := Ideal) .bf16
          (shapeCast S2048x2048 (m ((c : Thread nD τ).loc main_arg1) : S64x32x2048.Idx → EReal) shapeCasts_S64x32x2048_S2048x2048 : FVec Ideal S2048x2048 .f32)
          bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

/-- The stacked V at (j, k) is V at (j / 32, j % 32, k). -/
theorem stackedV_apply (c : Dev nD) (j k : Fin 2048) :
    (V m c main_v13 : S2048x2048.Idx → EReal) (ix2 j k)
      = (m ((c : Thread nD τ).loc main_arg1) : S64x32x2048.Idx → EReal) (ix3 (Cert.Mixture.hi j) (Cert.Mixture.lo j) k) := by
  refine (congrFun (stackedV_term m c) (ix2 j k)).trans ?_
  refine (truncf_apply _ bitsLt_bf16_f32 (ix2 j k)).trans ?_
  refine shapeCast_apply _ shapeCasts_S64x32x2048_S2048x2048 (ix2 j k) (ix3 (Cert.Mixture.hi j) (Cert.Mixture.lo j) k) ?_
  rewrite [Shape.rowMajor_val_three, Shape.rowMajor_val_two]
  show ((j.val / 32) * 32 + j.val % 32) * 2048 + k.val = j.val * 2048 + k.val
  omega

/-- The stacked U as a whole array: U with its last two axes exchanged, reshaped to rows of length 2048, then narrowed. -/
theorem stackedU_term (c : Dev nD) :
    (V m c main_v14 : S2048x2048.Idx → EReal)
      = truncf (F := Ideal) .bf16
          (shapeCast S2048x2048
            (transpose S64x32x2048 [0, 2, 1] (m ((c : Thread nD τ).loc main_arg2) : S64x2048x32.Idx → EReal) transposes_S64x2048x32_S64x32x2048_0_2_1)
            shapeCasts_S64x32x2048_S2048x2048 : FVec Ideal S2048x2048 .f32)
          bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

/-- The stacked U at (j, d) is U at (j / 32, d, j % 32). -/
theorem stackedU_apply (c : Dev nD) (j d : Fin 2048) :
    (V m c main_v14 : S2048x2048.Idx → EReal) (ix2 j d)
      = (m ((c : Thread nD τ).loc main_arg2) : S64x2048x32.Idx → EReal) (ix3 (Cert.Mixture.hi j) d (Cert.Mixture.lo j)) := by
  refine (congrFun (stackedU_term m c) (ix2 j d)).trans ?_
  refine (truncf_apply _ bitsLt_bf16_f32 (ix2 j d)).trans ?_
  refine (shapeCast_apply _ shapeCasts_S64x32x2048_S2048x2048 (ix2 j d) (ix3 (Cert.Mixture.hi j) (Cert.Mixture.lo j) d) ?_).trans ?_
  · rewrite [Shape.rowMajor_val_three, Shape.rowMajor_val_two]
    show ((j.val / 32) * 32 + j.val % 32) * 2048 + d.val = j.val * 2048 + d.val
    omega
  · exact transpose_apply [0, 2, 1] _ transposes_S64x2048x32_S64x32x2048_0_2_1
      (ix3 (Cert.Mixture.hi j) (Cert.Mixture.lo j) d) (ix3 (Cert.Mixture.hi j) d (Cert.Mixture.lo j)) (fun b => match b with
      | ⟨0, _⟩ => rfl
      | ⟨1, _⟩ => rfl
      | ⟨2, _⟩ => rfl)

/-- The transposed encoder as a whole array: the encoder with its two axes exchanged. -/
theorem encT_term (c : Dev nD) :
    (V m c main_v3 : S2048x64.Idx → EReal)
      = transpose S2048x64 [1, 0] (m ((c : Thread nD τ).loc main_arg3) : S64x2048.Idx → EReal) transposes_S64x2048_S2048x64_1_0 := by
  dsimp only [Gen.V, Gen.V0]
  simp only [Gen.hostOps0, Gen.hostOps0_1, Gen.hostOps0_2, List.flatten_cons, List.flatten_nil, List.append_nil, List.cons_append, List.nil_append]
  after_results

/-- The transposed encoder at (k, n) is the encoder at (n, k). -/
theorem encT_apply (c : Dev nD) (k : Fin 2048) (n : Fin 64) :
    (V m c main_v3 : S2048x64.Idx → EReal) (ix2 k n)
      = (m ((c : Thread nD τ).loc main_arg3) : S64x2048.Idx → EReal) (ix2 n k) := by
  refine (congrFun (encT_term m c) (ix2 k n)).trans ?_
  exact transpose_apply [1, 0] _ transposes_S64x2048_S2048x64_1_0 (ix2 k n) (ix2 n k) (fun b => match b with
    | ⟨0, _⟩ => rfl
    | ⟨1, _⟩ => rfl)

/-- The bias row as a whole array: the bias reshaped to one row. -/
theorem biasRow_term (c : Dev nD) :
    (V m c main_v4 : S1x64.Idx → EReal)
      = shapeCast S1x64 (m ((c : Thread nD τ).loc main_arg4) : S64.Idx → EReal) shapeCasts_S64_S1x64 := by
  dsimp only [Gen.V, Gen.V0]
  simp only [Gen.hostOps0, Gen.hostOps0_1, Gen.hostOps0_2, List.flatten_cons, List.flatten_nil, List.append_nil, List.cons_append, List.nil_append]
  after_results
  rfl

/-- The bias row at (0, n) is the bias at n. -/
theorem biasRow_apply (c : Dev nD) (n : Fin 64) :
    (V m c main_v4 : S1x64.Idx → EReal) (ix2 (0 : Fin 1) n)
      = (m ((c : Thread nD τ).loc main_arg4) : S64.Idx → EReal) (ix1 n) := by
  refine (congrFun (biasRow_term m c) (ix2 (0 : Fin 1) n)).trans ?_
  refine shapeCast_apply _ shapeCasts_S64_S1x64 (ix2 (0 : Fin 1) n) (ix1 n) ?_
  rewrite [Shape.rowMajor_val_one, Shape.rowMajor_val_two]
  show n.val = 0 * 64 + n.val
  omega

/-- The word of 1.0 denotes the real number one. -/
theorem one_word : Ideal.ofBits .f32 0x3F800000#32 = (1 : EReal) := by
  simp [Ideal.ofBits, Ideal.ieee]
  first
    | (norm_cast; norm_num; done)
    | (rw [← EReal.coe_mul]; norm_num; done)

/-- The 64 by 64 identity as the host computes it: the converted comparison of the row number with the column number. -/
abbrev eye : FVec Ideal S64x64 .f32 :=
  uitofp .f32 (cmpi .eq (addi (iotaInDim S64x64 32 0) (broadcastInDim S64x64 ![] bcast_S_S64x64 (constantI S_ 32 0#32))) (iotaInDim S64x64 32 1))

/-- The row of 32 ones. -/
abbrev ones : FVec Ideal S1x32 .f32 := broadcastInDim S1x32 ![] bcast_S_S1x32 (constant (F := Ideal) S_ .f32 0x3F800000#32)

/-- The 0/1 matrix as a whole array: the identity and the row of ones each spread to 64 by 1 by 64 by 32, multiplied,
    reshaped to 64 rows of length 2048, then narrowed. -/
theorem spread_term (c : Dev nD) : (V m c main_v15 : S64x2048.Idx → EReal) =
    truncf (F := Ideal) .bf16
      (shapeCast S64x2048
        (mulf
          (broadcastInDim S64x1x64x32 ![0, 1, 2, 3] bcast_S64x1x64x1_S64x1x64x32_0_1_2_3
            (broadcastInDim S64x1x64x1 ![0, 2] bcast_S64x64_S64x1x64x1_0_2 eye))
          (broadcastInDim S64x1x64x32 ![0, 1, 2, 3] bcast_S1x1x1x32_S64x1x64x32_0_1_2_3
            (broadcastInDim S1x1x1x32 ![1, 3] bcast_S1x32_S1x1x1x32_1_3 ones)) : FVec Ideal S64x1x64x32 .f32)
        shapeCasts_S64x1x64x32_S64x2048 : FVec Ideal S64x2048 .f32) bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

/-- The identity at (a, b): one when a = b, zero otherwise. -/
theorem eye_apply (a b : Fin 64) : eye (ix2 a b) = if a = b then (1 : EReal) else 0 := by
  have hbc : (broadcastInDim S64x64 ![] bcast_S_S64x64 (constantI S_ 32 0#32) : IVec S64x64 32) (ix2 a b) = 0#32 :=
    broadcastInDim_apply _ bcast_S_S64x64 (constantI S_ 32 0#32) (ix2 a b) ix0 (fun d => d.elim0)
  show (((IntOp.cmpi .eq (IntOp.addi (BitVec.ofNat 32 a.val) ((broadcastInDim S64x64 ![] bcast_S_S64x64 (constantI S_ 32 0#32) : IVec S64x64 32) (ix2 a b))) (BitVec.ofNat 32 b.val)).toNat : ℝ) : EReal) = _
  rw [hbc]
  have hadd : IntOp.addi (BitVec.ofNat 32 a.val) 0#32 = BitVec.ofNat 32 a.val := by
    unfold IntOp.addi; exact BitVec.add_zero _
  rw [hadd]
  by_cases hab : a = b
  · subst hab
    rw [if_pos rfl, StableHlo.Predicate.cmpi_eq_iff.mpr rfl]
    norm_num
  · rw [if_neg hab]
    have hne : ¬ IntOp.cmpi .eq (BitVec.ofNat 32 a.val) (BitVec.ofNat 32 b.val) = 1#1 := by
      intro h
      have h' := congrArg BitVec.toNat (StableHlo.Predicate.cmpi_eq_iff.mp h)
      simp only [BitVec.toNat_ofNat] at h'
      have ha := a.isLt; have hb := b.isLt
      exact hab (Fin.ext (by omega))
    rw [eq_zero_of_ne_one hne]
    norm_num

/-- The 0/1 matrix at (n', j) is 1 when n' = j / 32 and 0 otherwise. -/
theorem spread_apply (c : Dev nD) (n' : Fin 64) (j : Fin 2048) :
    (V m c main_v15 : S64x2048.Idx → EReal) (ix2 n' j) = if n' = Cert.Mixture.hi j then (1 : EReal) else 0 := by
  refine (congrFun (spread_term m c) (ix2 n' j)).trans ?_
  refine (truncf_apply _ bitsLt_bf16_f32 (ix2 n' j)).trans ?_
  refine (shapeCast_apply _ shapeCasts_S64x1x64x32_S64x2048 (ix2 n' j)
    (ix4 n' (0 : Fin 1) (Cert.Mixture.hi j) (Cert.Mixture.lo j)) ?_).trans ?_
  · rewrite [Shape.rowMajor_val_four, Shape.rowMajor_val_two]
    show ((n'.val * 1 + 0) * 64 + j.val / 32) * 32 + j.val % 32 = n'.val * 2048 + j.val
    omega
  · rw [mulf_apply]
    have hl : (broadcastInDim S64x1x64x32 ![0, 1, 2, 3] bcast_S64x1x64x1_S64x1x64x32_0_1_2_3
          (broadcastInDim S64x1x64x1 ![0, 2] bcast_S64x64_S64x1x64x1_0_2 eye) : FVec Ideal S64x1x64x32 .f32)
          (ix4 n' (0 : Fin 1) (Cert.Mixture.hi j) (Cert.Mixture.lo j)) = eye (ix2 n' (Cert.Mixture.hi j)) := by
      refine (broadcastInDim_apply _ bcast_S64x1x64x1_S64x1x64x32_0_1_2_3 _ _
        (ix4 n' (0 : Fin 1) (Cert.Mixture.hi j) (0 : Fin 1)) (fun a => ?_)).trans ?_
      · match a with
        | ⟨0, _⟩ => show n'.val = if (64 : Nat) = 1 then 0 else n'.val; rw [if_neg (by decide)]
        | ⟨1, _⟩ => show 0 = if (1 : Nat) = 1 then 0 else 0; rw [if_pos rfl]
        | ⟨2, _⟩ => show (Cert.Mixture.hi j).val = if (64 : Nat) = 1 then 0 else (Cert.Mixture.hi j).val; rw [if_neg (by decide)]
        | ⟨3, _⟩ => show 0 = if (1 : Nat) = 1 then 0 else (Cert.Mixture.lo j).val; rw [if_pos rfl]
      · refine broadcastInDim_apply _ bcast_S64x64_S64x1x64x1_0_2 eye _ (ix2 n' (Cert.Mixture.hi j)) (fun a => ?_)
        match a with
        | ⟨0, _⟩ => show n'.val = if (64 : Nat) = 1 then 0 else n'.val; rw [if_neg (by decide)]
        | ⟨1, _⟩ => show (Cert.Mixture.hi j).val = if (64 : Nat) = 1 then 0 else (Cert.Mixture.hi j).val; rw [if_neg (by decide)]
    have hr : (broadcastInDim S64x1x64x32 ![0, 1, 2, 3] bcast_S1x1x1x32_S64x1x64x32_0_1_2_3
          (broadcastInDim S1x1x1x32 ![1, 3] bcast_S1x32_S1x1x1x32_1_3 ones) : FVec Ideal S64x1x64x32 .f32)
          (ix4 n' (0 : Fin 1) (Cert.Mixture.hi j) (Cert.Mixture.lo j)) = (1 : EReal) := by
      refine (broadcastInDim_apply _ bcast_S1x1x1x32_S64x1x64x32_0_1_2_3 _ _
        (ix4 (0 : Fin 1) (0 : Fin 1) (0 : Fin 1) (Cert.Mixture.lo j)) (fun a => ?_)).trans ?_
      · match a with
        | ⟨0, _⟩ => show 0 = if (1 : Nat) = 1 then 0 else n'.val; rw [if_pos rfl]
        | ⟨1, _⟩ => show 0 = if (1 : Nat) = 1 then 0 else 0; rw [if_pos rfl]
        | ⟨2, _⟩ => show 0 = if (1 : Nat) = 1 then 0 else (Cert.Mixture.hi j).val; rw [if_pos rfl]
        | ⟨3, _⟩ => show (Cert.Mixture.lo j).val = if (32 : Nat) = 1 then 0 else (Cert.Mixture.lo j).val; rw [if_neg (by decide)]
      · refine (broadcastInDim_apply _ bcast_S1x32_S1x1x1x32_1_3 ones _ (ix2 (0 : Fin 1) (Cert.Mixture.lo j)) (fun a => ?_)).trans ?_
        · match a with
          | ⟨0, _⟩ => show 0 = if (1 : Nat) = 1 then 0 else 0; rw [if_pos rfl]
          | ⟨1, _⟩ => show (Cert.Mixture.lo j).val = if (32 : Nat) = 1 then 0 else (Cert.Mixture.lo j).val; rw [if_neg (by decide)]
        · refine (broadcastInDim_apply _ bcast_S_S1x32 (constant (F := Ideal) S_ .f32 0x3F800000#32) _ ix0 (fun d => d.elim0)).trans ?_
          exact one_word
    rw [hl, hr, mul_one]
    exact eye_apply n' (Cert.Mixture.hi j)

end Cert.KernelIdeal.HostPrefix

end
-- ==== Proof.Arrays.lean ====
/-
  From the body's blocks to the two result arrays.

  The grid has eight points; point t stages rows 256·t … 256·t + 255 of x and of both results, and the five other
  operands whole. Row p of a point's gate block is the gate of array row 256·t + p, and row p of its output block is
  the stacked form of the output of that row: the body's entries, with each block read where it lies in its array
  and each array read through what the host lines before the region made of the arguments. The eight row bands
  cover both result arrays, so each ends holding one function of the arguments.
-/
import proofs.«133590_j55645596287642_1_alg».proof.Proof.Gen.KernelIdeal.Frame
import proofs.«133590_j55645596287642_1_alg».proof.Proof.Mixture
import proofs.«133590_j55645596287642_1_alg».proof.Proof.Body
import proofs.«133590_j55645596287642_1_alg».proof.Proof.HostPrefix
import proofs.«133590_j55645596287642_1_alg».proof.Proof.HostTail
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The argument arrays as launched, and the blocks by their literal types -/

abbrev X (c : Dev nD) : Cert.Mixture.Sx.Idx → EReal := m ((c : Thread nD τ).loc main_arg0)
abbrev Vv (c : Dev nD) : Cert.Mixture.Sv.Idx → EReal := m ((c : Thread nD τ).loc main_arg1)
abbrev Uu (c : Dev nD) : Cert.Mixture.Su.Idx → EReal := m ((c : Thread nD τ).loc main_arg2)
abbrev En (c : Dev nD) : Cert.Mixture.Se.Idx → EReal := m ((c : Thread nD τ).loc main_arg3)
abbrev Bi (c : Dev nD) : Cert.Mixture.Sb.Idx → EReal := m ((c : Thread nD τ).loc main_arg4)

abbrev xblk (c : Dev nD) (t : Fin cfg0.N) : Vec Ideal S256x2048 .f32 := iblk m c 0 t
abbrev vblk (c : Dev nD) (t : Fin cfg0.N) : Vec Ideal S2048x2048 .bf16 := iblk m c 1 t
abbrev ublk (c : Dev nD) (t : Fin cfg0.N) : Vec Ideal S2048x2048 .bf16 := iblk m c 2 t
abbrev eblk (c : Dev nD) (t : Fin cfg0.N) : Vec Ideal S2048x64 .f32 := iblk m c 3 t
abbrev bblk (c : Dev nD) (t : Fin cfg0.N) : Vec Ideal S1x64 .f32 := iblk m c 4 t
abbrev sblk (c : Dev nD) (t : Fin cfg0.N) : Vec Ideal S64x2048 .bf16 := iblk m c 5 t

theorem hz : (![0, 0] : Fin 2 → Nat) = fun _ => 0 := funext fun a => by fin_cases a <;> rfl

/-- The array row that row p of point t's blocks is. -/
def row (t : Fin cfg0.N) (p : Fin 256) : Fin 2048 :=
  ⟨t.val * 256 + p.val, by have h := t.isLt; have hN : cfg0.N = 8 := N_0; have := p.isLt; omega⟩

/-- The printed index maps over the grid: x and the two results move down one band per point, the rest stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## Each input block read where it lies -/

theorem xblk_apply (c : Dev nD) (t : Fin cfg0.N) (p : Fin 256) (k : Fin 2048) :
    xblk m c t (ix2 p k) = X m c (ix2 (row t p) k) := by
  obtain ⟨e0, e1, -⟩ := idx_facts t
  unfold xblk iblk
  rw [View.read_apply]
  show V m c main_arg0 _ = _
  rw [V_main_arg0 m c]
  refine congrArg (m ((c : Thread nD τ).loc main_arg0)) ?_
  funext a; apply Fin.ext
  match a with
  | ⟨0, _⟩ => show win0_0.index t (0 : Fin 2) * 256 + 1 * p.val = t.val * 256 + p.val; rw [e0]; omega
  | ⟨1, _⟩ => show win0_0.index t (1 : Fin 2) * 2048 + 1 * k.val = k.val; rw [e1]; omega

theorem vblk_apply (c : Dev nD) (t : Fin cfg0.N) (j k : Fin 2048) :
    vblk m c t (ix2 j k) = Vv m c (ix3 (Cert.Mixture.hi j) (Cert.Mixture.lo j) k) := by
  obtain ⟨-, -, e0, e1, -⟩ := idx_facts t
  unfold vblk iblk
  rw [View.read_apply]
  refine Eq.trans (congrArg (V m c main_v13 : S2048x2048.Idx → EReal) ?_) (HostPrefix.stackedV_apply m c j k)
  funext a; apply Fin.ext
  match a with
  | ⟨0, _⟩ => show win0_1.index t (0 : Fin 2) * 2048 + 1 * j.val = j.val; rw [e0]; omega
  | ⟨1, _⟩ => show win0_1.index t (1 : Fin 2) * 2048 + 1 * k.val = k.val; rw [e1]; omega

theorem ublk_apply (c : Dev nD) (t : Fin cfg0.N) (j d : Fin 2048) :
    ublk m c t (ix2 j d) = Uu m c (ix3 (Cert.Mixture.hi j) d (Cert.Mixture.lo j)) := by
  obtain ⟨-, -, -, -, e0, e1, -⟩ := idx_facts t
  unfold ublk iblk
  rw [View.read_apply]
  refine Eq.trans (congrArg (V m c main_v14 : S2048x2048.Idx → EReal) ?_) (HostPrefix.stackedU_apply m c j d)
  funext a; apply Fin.ext
  match a with
  | ⟨0, _⟩ => show win0_2.index t (0 : Fin 2) * 2048 + 1 * j.val = j.val; rw [e0]; omega
  | ⟨1, _⟩ => show win0_2.index t (1 : Fin 2) * 2048 + 1 * d.val = d.val; rw [e1]; omega

theorem eblk_apply (c : Dev nD) (t : Fin cfg0.N) (k : Fin 2048) (n : Fin 64) :
    eblk m c t (ix2 k n) = En m c (ix2 n k) := by
  obtain ⟨-, -, -, -, -, -, e0, e1, -⟩ := idx_facts t
  unfold eblk iblk
  rw [View.read_apply]
  refine Eq.trans (congrArg (V m c main_v3 : S2048x64.Idx → EReal) ?_) (HostPrefix.encT_apply m c k n)
  funext a; apply Fin.ext
  match a with
  | ⟨0, _⟩ => show win0_3.index t (0 : Fin 2) * 2048 + 1 * k.val = k.val; rw [e0]; omega
  | ⟨1, _⟩ => show win0_3.index t (1 : Fin 2) * 64 + 1 * n.val = n.val; rw [e1]; omega

theorem bblk_apply (c : Dev nD) (t : Fin cfg0.N) (n : Fin 64) :
    bblk m c t (ix2 (0 : Fin 1) n) = Bi m c (ix1 n) := by
  obtain ⟨-, -, -, -, -, -, -, -, e0, e1, -⟩ := idx_facts t
  unfold bblk iblk
  rw [View.read_apply]
  refine Eq.trans (congrArg (V m c main_v4 : S1x64.Idx → EReal) ?_) (HostPrefix.biasRow_apply m c n)
  funext a; apply Fin.ext
  match a with
  | ⟨0, _⟩ => show win0_4.index t (0 : Fin 2) * 1 + 1 * 0 = 0; rw [e0]
  | ⟨1, _⟩ => show win0_4.index t (1 : Fin 2) * 64 + 1 * n.val = n.val; rw [e1]; omega

theorem sblk_apply (c : Dev nD) (t : Fin cfg0.N) (n' : Fin 64) (j : Fin 2048) :
    sblk m c t (ix2 n' j) = if n' = Cert.Mixture.hi j then (1 : EReal) else 0 := by
  obtain ⟨-, -, -, -, -, -, -, -, -, -, e0, e1, -⟩ := idx_facts t
  unfold sblk iblk
  rw [View.read_apply]
  refine Eq.trans (congrArg (V m c main_v15 : S64x2048.Idx → EReal) ?_) (HostPrefix.spread_apply m c n' j)
  funext a; apply Fin.ext
  match a with
  | ⟨0, _⟩ => show win0_5.index t (0 : Fin 2) * 64 + 1 * n'.val = n'.val; rw [e0]; omega
  | ⟨1, _⟩ => show win0_5.index t (1 : Fin 2) * 2048 + 1 * j.val = j.val; rw [e1]; omega

/-! ## The body's entries as functions of the arguments -/

/-- Row p of point t's gate block is the gate of array row 256·t + p. -/
theorem gate_point (c : Dev nD) (t : Fin cfg0.N) (p : Fin 256) (n : Fin 64) :
    k0_pay1 (F := Ideal) (xblk m c t) (eblk m c t) (bblk m c t) (ix2 p n)
      = Cert.Mixture.gate (X m c) (En m c) (Bi m c) (row t p) n := by
  refine (Body.gateBlock_apply (xblk m c t) (eblk m c t) (bblk m c t) p n).trans ?_
  have hs : (∑ k : Fin 2048, xblk m c t (ix2 p k) * eblk m c t (ix2 k n)) - bblk m c t (ix2 (0 : Fin 1) n)
      = Cert.Mixture.preAct (X m c) (En m c) (Bi m c) (row t p) n := by
    unfold Cert.Mixture.preAct
    rw [bblk_apply m c t n]
    refine congrArg (· - Bi m c (ix1 n)) (Finset.sum_congr rfl fun k _ => ?_)
    rw [xblk_apply m c t p k, eblk_apply m c t k n]
  rw [hs]
  rfl

/-- Row p of point t's output block is the stacked form of the output of array row 256·t + p. -/
theorem out_point (c : Dev nD) (t : Fin cfg0.N) (p : Fin 256) (d : Fin 2048) :
    k0_pay2 (F := Ideal) (xblk m c t) (eblk m c t) (bblk m c t) (sblk m c t) (vblk m c t) (ublk m c t) (ix2 p d)
      = Cert.Mixture.outStacked (X m c) (Vv m c) (Uu m c) (En m c) (Bi m c) (row t p) d := by
  refine (Body.outBlock_apply (xblk m c t) (eblk m c t) (bblk m c t) (sblk m c t) (vblk m c t) (ublk m c t) p d).trans ?_
  unfold Cert.Mixture.outStacked Cert.Mixture.proj
  refine Finset.sum_congr rfl fun j _ => ?_
  rw [ublk_apply m c t j d]
  refine congrArg (· * Uu m c (ix3 (Cert.Mixture.hi j) d (Cert.Mixture.lo j))) ?_
  refine congrArg₂ (· * ·) (Finset.sum_congr rfl fun k _ => ?_) (Finset.sum_congr rfl fun n' _ => ?_)
  · rw [xblk_apply m c t p k, vblk_apply m c t j k]
  · rw [gate_point m c t p n', sblk_apply m c t n' j]

/-! ## What each point writes back, and the cover -/

theorem emb_gate (t : Fin cfg0.N) (p : Fin 256) (n : Fin 64) :
    ((cfg0.win 7).blk t).view.emb (ix2 p n) = (ix2 (row t p) n : S2048x64.Idx) := by
  obtain ⟨-, -, -, -, -, -, -, -, -, -, -, -, -, -, e0, e1⟩ := idx_facts t
  funext a; apply Fin.ext
  match a with
  | ⟨0, _⟩ => show win0_7.index t (0 : Fin 2) * 256 + 1 * p.val = t.val * 256 + p.val; rw [e0]; omega
  | ⟨1, _⟩ => show win0_7.index t (1 : Fin 2) * 64 + 1 * n.val = n.val; rw [e1]; omega

theorem emb_out (t : Fin cfg0.N) (p : Fin 256) (d : Fin 2048) :
    ((cfg0.win 6).blk t).view.emb (ix2 p d) = (ix2 (row t p) d : S2048x2048.Idx) := by
  obtain ⟨-, -, -, -, -, -, -, -, -, -, -, -, e0, e1, -⟩ := idx_facts t
  funext a; apply Fin.ext
  match a with
  | ⟨0, _⟩ => show win0_6.index t (0 : Fin 2) * 256 + 1 * p.val = t.val * 256 + p.val; rw [e0]; omega
  | ⟨1, _⟩ => show win0_6.index t (1 : Fin 2) * 2048 + 1 * d.val = d.val; rw [e1]; omega

/-- Point t writes back band t of the gate array. -/
theorem gate_flushed (c : Dev nD) (t : Fin cfg0.N) :
    (dats m 0 c).flushed 7 t
      = ((cfg0.win 7).blk t).view.read (Elt Ideal) (Cert.Mixture.gateArr (X m c) (En m c) (Bi m c)) := by
  show (cfg0.win 7).cut (grid0.coords t) ((dats m 0 c).after 7 t) = _
  rw [after0_7]
  unfold out0_7
  rw [View.canon_unit_zero hz]
  simp only [View.ld_unit_zero (S := S256x2048) hz, View.ld_unit_zero (S := S2048x64) hz, View.ld_unit_zero (S := S1x64) hz]
  funext j
  obtain ⟨p, n, rfl⟩ : ∃ (p : Fin 256) (n : Fin 64), j = ix2 p n := ⟨j 0, j 1, eq_ix2 j⟩
  rw [View.read_apply, emb_gate t p n]
  exact gate_point m c t p n

/-- Point t writes back band t of the stacked output array. -/
theorem out_flushed (c : Dev nD) (t : Fin cfg0.N) :
    (dats m 0 c).flushed 6 t
      = ((cfg0.win 6).blk t).view.read (Elt Ideal)
          (Cert.Mixture.outStackedArr (X m c) (Vv m c) (Uu m c) (En m c) (Bi m c)) := by
  show (cfg0.win 6).cut (grid0.coords t) ((dats m 0 c).after 6 t) = _
  rw [after0_6]
  unfold out0_6
  rw [View.canon_unit_zero hz]
  simp only [View.ld_unit_zero (S := S256x2048) hz, View.ld_unit_zero (S := S2048x64) hz, View.ld_unit_zero (S := S1x64) hz,
    View.ld_unit_zero (S := S64x2048) hz, View.ld_unit_zero (S := S2048x2048) hz]
  funext j
  obtain ⟨p, d, rfl⟩ : ∃ (p : Fin 256) (d : Fin 2048), j = ix2 p d := ⟨j 0, j 1, eq_ix2 j⟩
  rw [View.read_apply, emb_out t p d]
  exact out_point m c t p d

/-- An index of the gate array is in point t's band iff each coordinate is in the band's range. -/
theorem mem_gate_band (t : Fin cfg0.N) (i : S2048x64.Idx) :
    i ∈ ((cfg0.win 7).blk t).view.set
      ↔ ∀ a : Fin 2, win0_7.index t a * S256x64.size a ≤ (i a).val ∧ (i a).val < win0_7.index t a * S256x64.size a + S256x64.size a := by
  show i ∈ ((View.whole main_v16_1).slice (win0_7.rect t)).set ↔ _
  rw [View.set_slice_whole, Rect.mem_set_unit]
  exact Iff.rfl

theorem mem_out_band (t : Fin cfg0.N) (i : S2048x2048.Idx) :
    i ∈ ((cfg0.win 6).blk t).view.set
      ↔ ∀ a : Fin 2, win0_6.index t a * S256x2048.size a ≤ (i a).val ∧ (i a).val < win0_6.index t a * S256x2048.size a + S256x2048.size a := by
  show i ∈ ((View.whole main_v16_0).slice (win0_6.rect t)).set ↔ _
  rw [View.set_slice_whole, Rect.mem_set_unit]
  exact Iff.rfl

/-- The band that holds a row. -/
def band (r : Nat) (hr : r < 2048) : Fin cfg0.N := ⟨r / 256, by have hN : cfg0.N = 8 := N_0; omega⟩

/-- The gate array after the run. -/
theorem final_gate (c : Dev nD) :
    (dats m 0 c).arrAt 7 cfg0.N = Cert.Mixture.gateArr (X m c) (En m c) (Bi m c) :=
  (dats m 0 c).arrAt_eq_of_cover 7 (Cert.Mixture.gateArr (X m c) (En m c) (Bi m c)) (fun t _ => gate_flushed m c t) fun i => by
    have h0 : (i 0).val < 2048 := (i 0).isLt
    have h1 : (i 1).val < 64 := (i 1).isLt
    refine ⟨band (i 0).val h0, flush0_7 _, ?_⟩
    obtain ⟨-, -, -, -, -, -, -, -, -, -, -, -, -, -, e0, e1⟩ := idx_facts (band (i 0).val h0)
    rw [mem_gate_band]
    intro a
    match a with
    | ⟨0, _⟩ =>
      show win0_7.index (band (i 0).val h0) (0 : Fin 2) * 256 ≤ (i 0).val ∧ (i 0).val < win0_7.index (band (i 0).val h0) (0 : Fin 2) * 256 + 256
      rw [e0]; show (i 0).val / 256 * 256 ≤ (i 0).val ∧ (i 0).val < (i 0).val / 256 * 256 + 256; omega
    | ⟨1, _⟩ =>
      show win0_7.index (band (i 0).val h0) (1 : Fin 2) * 64 ≤ (i 1).val ∧ (i 1).val < win0_7.index (band (i 0).val h0) (1 : Fin 2) * 64 + 64
      rw [e1]; omega

/-- The output array after the run, in its stacked form. -/
theorem final_out (c : Dev nD) :
    (dats m 0 c).arrAt 6 cfg0.N = Cert.Mixture.outStackedArr (X m c) (Vv m c) (Uu m c) (En m c) (Bi m c) :=
  (dats m 0 c).arrAt_eq_of_cover 6 (Cert.Mixture.outStackedArr (X m c) (Vv m c) (Uu m c) (En m c) (Bi m c))
    (fun t _ => out_flushed m c t) fun i => by
    have h0 : (i 0).val < 2048 := (i 0).isLt
    have h1 : (i 1).val < 2048 := (i 1).isLt
    refine ⟨band (i 0).val h0, flush0_6 _, ?_⟩
    obtain ⟨-, -, -, -, -, -, -, -, -, -, -, -, e0, e1, -⟩ := idx_facts (band (i 0).val h0)
    rw [mem_out_band]
    intro a
    match a with
    | ⟨0, _⟩ =>
      show win0_6.index (band (i 0).val h0) (0 : Fin 2) * 256 ≤ (i 0).val ∧ (i 0).val < win0_6.index (band (i 0).val h0) (0 : Fin 2) * 256 + 256
      rw [e0]; show (i 0).val / 256 * 256 ≤ (i 0).val ∧ (i 0).val < (i 0).val / 256 * 256 + 256; omega
    | ⟨1, _⟩ =>
      show win0_6.index (band (i 0).val h0) (1 : Fin 2) * 2048 ≤ (i 1).val ∧ (i 1).val < win0_6.index (band (i 0).val h0) (1 : Fin 2) * 2048 + 2048
      rw [e1]; omega

/-! ## The run, read -/

/-- Every execution ends with the output array at its stacked form, the gate array at the gate, the third result
    at the norms' product over 256, and the arguments unchanged. -/
theorem run : θ_run defs (onTc (τ := τ) (main (F := Ideal))) ⟨m, fun _ => 0, ρ⟩ fun r => ∀ c : Dev nD,
      r.2.mem ((c.tc : Thread nD τ).loc main_v16_0) = Cert.Mixture.outStackedArr (X m c) (Vv m c) (Uu m c) (En m c) (Bi m c)
      ∧ r.2.mem ((c.tc : Thread nD τ).loc main_v16_1) = Cert.Mixture.gateArr (X m c) (En m c) (Bi m c)
      ∧ r.2.mem ((c.tc : Thread nD τ).loc main_v23) = HostTail.norms (m ((c : Thread nD τ).loc main_arg2)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 6).trans (final_out m c),
     ((h c).1 7).trans (final_gate m c),
     ((h c).2 main_v23 (Pipeline.mem_restRefs_of main_v23 (by decide) (by decide))).trans (HostTail.tail_norms m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Arrays

end
-- ==== Proof.lean ====
/-
  The kernel computes a gated mixture of 64 rank-32 transforms as three dense products over a stacked rank axis
  j = 32·n + r, eight row bands of 256 at a time; the reference computes it transform by transform with einsums.
  On the extended reals both produce, from the same arguments,

      gate(b,n) = a·[a > 0],  a = Σ_k x(b,k)·e(n,k) − β(n)
      out(b,d)  = Σ_n ( Σ_r (Σ_k x(b,k)·V(n,r,k)) · U(n,d,r) ) · gate(b,n)
      norms(n)  = ‖U(n)‖·‖V(n)‖ / 256

  The gate and the norms are the same expressions on both sides. For the output the kernel's arrangement is the
  stacked one (Mixture.outStacked), equal to the reference's when every argument entry is a real number, which the
  precondition gives: the 0/1 spreading matrix selects the gate of the transform a stacked coordinate belongs to,
  the stacked axis splits into (transform, rank), and the gate moves out of the sum over the rank.
  The kernel's frames are the generated ones; the reference's frame is its generated run with the results dropped;
  the idealization rewrote nothing, so there is nothing to preserve.
-/
import proofs.«133590_j55645596287642_1_alg».proof.Defs
import proofs.«133590_j55645596287642_1_alg».proof.Proof.Gen.Kernel
import proofs.«133590_j55645596287642_1_alg».proof.Proof.Gen.Kernel.Skeleton
import proofs.«133590_j55645596287642_1_alg».proof.Proof.Gen.Kernel.Launch
import proofs.«133590_j55645596287642_1_alg».proof.Proof.Gen.Kernel.Points
import proofs.«133590_j55645596287642_1_alg».proof.Proof.Gen.Kernel.Frame
import proofs.«133590_j55645596287642_1_alg».proof.Proof.Gen.KernelIdeal
import proofs.«133590_j55645596287642_1_alg».proof.Proof.Gen.KernelIdeal.Skeleton
import proofs.«133590_j55645596287642_1_alg».proof.Proof.Gen.KernelIdeal.Launch
import proofs.«133590_j55645596287642_1_alg».proof.Proof.Gen.KernelIdeal.Points
import proofs.«133590_j55645596287642_1_alg».proof.Proof.Gen.KernelIdeal.Frame
import proofs.«133590_j55645596287642_1_alg».proof.Proof.Gen.ReferenceIdeal
import proofs.«133590_j55645596287642_1_alg».proof.Proof.Gen.ReferenceIdeal.Run
import proofs.«133590_j55645596287642_1_alg».proof.Proof.Gen.ReferenceIdeal.Read
import proofs.«133590_j55645596287642_1_alg».proof.Proof.Gen.Pre_finite_inputs
import proofs.«133590_j55645596287642_1_alg».proof.Proof.Mixture
import proofs.«133590_j55645596287642_1_alg».proof.Proof.Finite
import proofs.«133590_j55645596287642_1_alg».proof.Proof.RefSide
import proofs.«133590_j55645596287642_1_alg».proof.Proof.HostTail
import proofs.«133590_j55645596287642_1_alg».proof.Proof.Arrays
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end at the gate array, the output array taken transform by transform, and the norms' product
    over 256, of the same arguments: the kernel's stacked output is the transform-by-transform one because the
    precondition makes every entry real. -/
theorem algebraic : Cert.algebraic_KernelIdeal_ReferenceIdeal := by
  intro m ρ m' ρ' hpre hagree
  refine ⟨fun c => Cert.Mixture.outArr (Cert.KernelIdeal.Arrays.X m c) (Cert.KernelIdeal.Arrays.Vv m c)
        (Cert.KernelIdeal.Arrays.Uu m c) (Cert.KernelIdeal.Arrays.En m c) (Cert.KernelIdeal.Arrays.Bi m c),
    fun c => Cert.Mixture.gateArr (Cert.KernelIdeal.Arrays.X m c) (Cert.KernelIdeal.Arrays.En m c) (Cert.KernelIdeal.Arrays.Bi m c),
    fun c => Cert.KernelIdeal.HostTail.norms (m ((c : Thread Cert.KernelIdeal.nD Cert.KernelIdeal.τ).loc Cert.KernelIdeal.main_arg2))
        (m ((c : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Arrays.run m ρ)
    obtain ⟨hx, hV, hU, he, hβ⟩ := Cert.Pre_finite_inputs.Finite.real_of_pre _ _ _ _ _ (hpre c)
    exact Cert.Mixture.outStackedArr_eq _ _ _ _ _ hx hV hU he hβ
  · refine (θ_run Cert.ReferenceIdeal.defs _ _).mono (fun _ h c => ?_) (Cert.ReferenceIdeal.Value.run (F := Ideal) m' ρ')
    obtain ⟨a0, a1, a2, a3, a4⟩ := hagree c
    obtain ⟨h16, h8, h23, hr⟩ := h c
    refine ⟨?_, ?_, ?_, hr⟩
    · rw [h16, Cert.ReferenceIdeal.Read.val_main_v16_eq, Cert.ReferenceIdeal.RefSide.ref_out, a0, a1, a2, a3, a4]
    · rw [h8, Cert.ReferenceIdeal.Read.val_main_v8_eq, Cert.ReferenceIdeal.RefSide.ref_gate, a0, a3, a4]
    · rw [h23, a1, a2]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
